-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S4x4096 : Shape := ⟨2, ![4, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_arg4 : FVec F S4x4096 .f32) (main_arg5 : FVec F S4x4096 .f32) (main_v13 : IVec S_ 1) (main_v16 : IVec S4x4096 1) : IVec S_ 1 :=
  let main_c_5 : IVec S_ 1 := constantI S_ 1 1#1
  let main_v17 : IVec S_ 1 := (fun x v => Host.reduce IntOp.andi x v reducesTo_S4x4096_S_d0_1 h_S_) main_v16 main_c_5
  let main_v18 : IVec S_ 1 := andi main_v13 main_v17
  let main_v19 : FVec F S4x4096 .f32 := Host.absf main_arg4
  let main_cst_6 : FVec F S_ .f32 := constant S_ .f32 0x7F800000#32
  let main_v20 : FVec F S4x4096 .f32 := broadcastInDim S4x4096 ![] bcast_S_S4x4096 main_cst_6
  let main_v21 : IVec S4x4096 1 := cmpf .olt main_v19 main_v20
  let main_c_7 : IVec S_ 1 := constantI S_ 1 1#1
  let main_v22 : IVec S_ 1 := (fun x v => Host.reduce IntOp.andi x v reducesTo_S4x4096_S_d0_1 h_S_) main_v21 main_c_7
  let main_v23 : IVec S_ 1 := andi main_v18 main_v22
  let main_v24 : FVec F S4x4096 .f32 := Host.absf main_arg5
  let main_cst_8 : FVec F S_ .f32 := constant S_ .f32 0x7F800000#32
  let main_v25 : FVec F S4x4096 .f32 := broadcastInDim S4x4096 ![] bcast_S_S4x4096 main_cst_8
  let main_v26 : IVec S4x4096 1 := cmpf .olt main_v24 main_v25
  let main_c_9 : IVec S_ 1 := constantI S_ 1 1#1
  let main_v27 : IVec S_ 1 := (fun x v => Host.reduce IntOp.andi x v reducesTo_S4x4096_S_d0_1 h_S_) main_v26 main_c_9
  let main_v28 : IVec S_ 1 := andi main_v23 main_v27
  main_v28

def fn {F : FTy → Type} [FloatOps F] (main_arg0 : FVec F S4x2048x4096 .f32) (main_arg1 : FVec F S4096x4096 .f32) (main_arg2 : FVec F S4096 .f32) (main_arg3 : FVec F S4x4096 .f32) (main_arg4 : FVec F S4x4096 .f32) (main_arg5 : FVec F S4x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4x4096 .f32 := Host.absf main_arg3
  let main_cst_4 : FVec F S_ .f32 := constant S_ .f32 0x7F800000#32
  let main_v15 : FVec F S4x4096 .f32 := broadcastInDim S4x4096 ![] bcast_S_S4x4096 main_cst_4
  let main_v16 : IVec S4x4096 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4x4096 : Shape := ⟨2, ![4, 4096]⟩
abbrev S8192x4096 : Shape := ⟨2, ![8192, 4096]⟩
abbrev S4096x4 : Shape := ⟨2, ![4096, 4]⟩
abbrev S8192x4 : Shape := ⟨2, ![8192, 4]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S256x4096 : Shape := ⟨2, ![256, 4096]⟩
abbrev S256x4 : Shape := ⟨2, ![256, 4]⟩
abbrev S4x512 : Shape := ⟨2, ![4, 512]⟩
abbrev S512x4096 : Shape := ⟨2, ![512, 4096]⟩
abbrev S1x512 : Shape := ⟨2, ![1, 512]⟩
abbrev S256x512 : Shape := ⟨2, ![256, 512]⟩

abbrev nBuf : Space → Nat
  | .hbm => 28
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4x4096, .f32⟩
  | .hbm, ⟨4, _⟩ => ⟨S4x4096, .f32⟩
  | .hbm, ⟨5, _⟩ => ⟨S4x4096, .f32⟩
  | .hbm, ⟨6, _⟩ => ⟨S8192x4096, .f32⟩
  | .hbm, ⟨7, _⟩ => ⟨S4096x4, .f32⟩
  | .hbm, ⟨8, _⟩ => ⟨S8192x4, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x4, .f32⟩
  | .hbm, ⟨16, _⟩ => ⟨S8192x4, .f32⟩
  | .hbm, ⟨17, _⟩ => ⟨S8192x4, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x4, .f32⟩
  | .hbm, ⟨22, _⟩ => ⟨S8192x4, .f32⟩
  | .hbm, ⟨23, _⟩ => ⟨S4096x4096, .f32⟩
  | .hbm, ⟨24, _⟩ => ⟨S4096x4096, .bf16⟩
  | .hbm, ⟨25, _⟩ => ⟨S1x4096, .f32⟩
  | .hbm, ⟨26, _⟩ => ⟨S8192x4096, .f32⟩
  | .hbm, ⟨27, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4, .f32⟩
  | .local _ .vmem, ⟨3, _⟩ => ⟨S256x4, .f32⟩
  | .local _ .vmem, ⟨4, _⟩ => ⟨S4x4096, .f32⟩
  | .local _ .vmem, ⟨5, _⟩ => ⟨S4x512, .f32⟩
  | .local _ .vmem, ⟨6, _⟩ => ⟨S4x512, .f32⟩
  | .local _ .vmem, ⟨7, _⟩ => ⟨S512x4096, .bf16⟩
  | .local _ .vmem, ⟨8, _⟩ => ⟨S512x4096, .bf16⟩
  | .local _ .vmem, ⟨9, _⟩ => ⟨S1x512, .f32⟩
  | .local _ .vmem, ⟨10, _⟩ => ⟨S1x512, .f32⟩
  | .local _ .vmem, ⟨11, _⟩ => ⟨S256x512, .f32⟩
  | .local _ .vmem, ⟨12, _⟩ => ⟨S256x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x2048x4096_S8192x4096 : S4x2048x4096.ShapeCasts S8192x4096
  transposes_S4x4096_S4096x4_1_0 : S4x4096.Transposes [1, 0] S4096x4
  reducesTo_S8192x4_S8192_d1 : S8192x4.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4_0_1 : S8192x1.BroadcastsInDim S8192x4 (![0, 1] : Fin 2 → Fin S8192x4.rank)
  bitsLt_bf16_f32 : FTy.bits .bf16 < FTy.bits .f32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S4x4096_S4x4096_0_0 : ∀ a, (![0, 0] : Fin 2 → Nat) a + S4x4096.size a ≤ S4x4096.size a
  h_S4x4096 : 0 < S4x4096.numel
  inb_S4x512_S4x512_0_0 : ∀ a, (![0, 0] : Fin 2 → Nat) a + S4x512.size a ≤ S4x512.size a
  h_S4x512 : 0 < S4x512.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  shapeCasts_S8192x4096_S4x2048x4096 : S8192x4096.ShapeCasts S4x2048x4096
  dot_S8192x4096_S4096x4_S8192x4_1_0_0_1_n_n_wf : DotDims.WF S8192x4096 S4096x4 S8192x4 [1] [0] [0] [1] [] []
  dot_S256x4_S4x4096_S256x4096_1_0_0_1_n_n_wf : DotDims.WF S256x4 S4x4096 S256x4096 [1] [0] [0] [1] [] []
  dot_S256x4_S4x512_S256x512_1_0_0_1_n_n_wf : DotDims.WF S256x4 S4x512 S256x512 [1] [0] [0] [1] [] []
  dot_S256x4096_S512x4096_S256x512_1_1_0_0_n_n_wf : DotDims.WF S256x4096 S512x4096 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4.size a ≤ S8192x4.size a
  hwx0_1 : ∀ i : grid0.Coords, EltTy.bits .f32 = 32 ∨ (Rect.block (s := S8192x4) S256x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x4096.size a ≤ S4x4096.size a
  hwx0_2 : ∀ i : grid0.Coords, EltTy.bits .f32 = 32 ∨ (Rect.block (s := S4x4096) S4x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512.size a ≤ S4x4096.size a
  hwx0_3 : ∀ i : grid0.Coords, EltTy.bits .f32 = 32 ∨ (Rect.block (s := S4x4096) S4x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .bf16 = 32 ∨ (Rect.block (s := S4096x4096) S512x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S8192x4096.size a
  hwx0_6 : ∀ i : grid0.Coords, EltTy.bits .f32 = 32 ∨ (Rect.block (s := S8192x4096) S256x512.size (cc0_transform_6 i) (hinb0_6 i)).WholeWords (EltTy.packing .f32)

variable [Facts₀]

def dot_S8192x4096_S4096x4_S8192x4_1_0_0_1_n_n : DotDims S8192x4096 S4096x4 S8192x4 where
  lhsContracting := [1]
  rhsContracting := [0]
  lhsNonContracting := [0]
  rhsNonContracting := [1]
  lhsBatch := []
  rhsBatch := []
  wf := dot_S8192x4096_S4096x4_S8192x4_1_0_0_1_n_n_wf
def dot_S256x4_S4x4096_S256x4096_1_0_0_1_n_n : DotDims S256x4 S4x4096 S256x4096 where
  lhsContracting := [1]
  rhsContracting := [0]
  lhsNonContracting := [0]
  rhsNonContracting := [1]
  lhsBatch := []
  rhsBatch := []
  wf := dot_S256x4_S4x4096_S256x4096_1_0_0_1_n_n_wf
def dot_S256x4_S4x512_S256x512_1_0_0_1_n_n : DotDims S256x4 S4x512 S256x512 where
  lhsContracting := [1]
  rhsContracting := [0]
  lhsNonContracting := [0]
  rhsNonContracting := [1]
  lhsBatch := []
  rhsBatch := []
  wf := dot_S256x4_S4x512_S256x512_1_0_0_1_n_n_wf
def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S4x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S4x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S512x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17) S256x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4x4096 : Shape := ⟨2, ![4, 4096]⟩
abbrev S8192x4096 : Shape := ⟨2, ![8192, 4096]⟩
abbrev S4096x4 : Shape := ⟨2, ![4096, 4]⟩
abbrev S8192x4 : Shape := ⟨2, ![8192, 4]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4x4096, .f32⟩
  | .hbm, ⟨4, _⟩ => ⟨S4x4096, .f32⟩
  | .hbm, ⟨5, _⟩ => ⟨S4x4096, .f32⟩
  | .hbm, ⟨6, _⟩ => ⟨S8192x4096, .f32⟩
  | .hbm, ⟨7, _⟩ => ⟨S4096x4, .f32⟩
  | .hbm, ⟨8, _⟩ => ⟨S8192x4, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x4, .f32⟩
  | .hbm, ⟨16, _⟩ => ⟨S8192x4, .f32⟩
  | .hbm, ⟨17, _⟩ => ⟨S8192x4, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x4, .f32⟩
  | .hbm, ⟨22, _⟩ => ⟨S8192x4, .f32⟩
  | .hbm, ⟨23, _⟩ => ⟨S8192x4096, .f32⟩
  | .hbm, ⟨24, _⟩ => ⟨S8192x4096, .f32⟩
  | .hbm, ⟨25, _⟩ => ⟨S4096x4096, .f32⟩
  | .hbm, ⟨26, _⟩ => ⟨S8192x4096, .f32⟩
  | .hbm, ⟨27, _⟩ => ⟨S4096x4096, .f32⟩
  | .hbm, ⟨28, _⟩ => ⟨S8192x4096, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | .hbm, ⟨33, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  shapeCasts_S4x2048x4096_S8192x4096 : S4x2048x4096.ShapeCasts S8192x4096
  transposes_S4x4096_S4096x4_1_0 : S4x4096.Transposes [1, 0] S4096x4
  reducesTo_S8192x4_S8192_d1 : S8192x4.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4_0_1 : S8192x1.BroadcastsInDim S8192x4 (![0, 1] : Fin 2 → Fin S8192x4.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x4_S8192x4_1_0_0_1_n_n_wf : DotDims.WF S8192x4096 S4096x4 S8192x4 [1] [0] [0] [1] [] []
  dot_S8192x4_S4x4096_S8192x4096_1_0_0_1_n_n_wf : DotDims.WF S8192x4 S4x4096 S8192x4096 [1] [0] [0] [1] [] []
  dot_S8192x4096_S4096x4096_S8192x4096_1_0_0_1_n_n_wf : DotDims.WF S8192x4096 S4096x4096 S8192x4096 [1] [0] [0] [1] [] []

variable [Facts₀]

def dot_S8192x4096_S4096x4_S8192x4_1_0_0_1_n_n : DotDims S8192x4096 S4096x4 S8192x4 where
  lhsContracting := [1]
  rhsContracting := [0]
  lhsNonContracting := [0]
  rhsNonContracting := [1]
  lhsBatch := []
  rhsBatch := []
  wf := dot_S8192x4096_S4096x4_S8192x4_1_0_0_1_n_n_wf
def dot_S8192x4_S4x4096_S8192x4096_1_0_0_1_n_n : DotDims S8192x4 S4x4096 S8192x4096 where
  lhsContracting := [1]
  rhsContracting := [0]
  lhsNonContracting := [0]
  rhsNonContracting := [1]
  lhsBatch := []
  rhsBatch := []
  wf := dot_S8192x4_S4x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.LibDotRows.lean ====
/-
  Matrix products on the extended reals whose two operands share their SECOND axis: the rows of an `M×K` matrix against
  the rows of an `N×K` matrix. A contraction over one axis is a sum over that axis's coordinate, whatever the operands'
  shapes; for this pair of shapes the entry `(p, j)` is `∑ₖ l(p,k)·r(j,k)`, and so is such a product accumulated into
  zeros, whatever the two operands' float formats.
-/
import Idealize.ShloMosaic.PureOps.Ideal
import Idealize.ShloMosaic.PureOps.Ideal.Laws
import Idealize.ShloMosaic.Lib.ValueIdx

noncomputable section

open scoped BigOperators

namespace Cert.LibDotRows

open Idealize.ShloMosaic Idealize.ShloMosaic.ValueIdx

/-- A contraction over ONE axis of extent `K`, at an output index `i`: if the left operand is read at `Lx k` and the
    right at `Rx k` when the contracted coordinate is `k`, the contraction sum is `∑ₖ l(Lx k)·r(Rx k)`: the sum is
    carried along the bijection between the contraction's one-axis indices and the coordinate. -/
theorem sum_one_axis {sl sr so : Shape} (D : DotDims sl sr so) (K : Nat) (hr : D.contr.rank = 1)
    (hs : D.contr.size ⟨0, by omega⟩ = K) (l : sl.Idx → EReal) (r : sr.Idx → EReal) (i : so.Idx)
    (Lx : Fin K → sl.Idx) (Rx : Fin K → sr.Idx)
    (hL : ∀ q, D.lhsIdx i q = Lx (contrEquiv1 D K hr hs q)) (hR : ∀ q, D.rhsIdx i q = Rx (contrEquiv1 D K hr hs q)) :
    ∑ q : D.contr.Idx, l (D.lhsIdx i q) * r (D.rhsIdx i q) = ∑ k : Fin K, l (Lx k) * r (Rx k) :=
  (Finset.sum_congr rfl fun q _ => by rw [hL q, hR q]).trans
    (Equiv.sum_comp (contrEquiv1 D K hr hs) fun k => l (Lx k) * r (Rx k))

/-- Rows against rows: when the dimension numbers read the left operand at (the entry's row, the contracted coordinate)
    and the right operand at (the entry's column, the contracted coordinate) — the four hypotheses, coordinate by
    coordinate — the contraction sum at entry `(p, j)` is `∑ₖ l(p,k)·r(j,k)`. -/
theorem sum_rows {M K N : Nat} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (l : (⟨2, ![M, K]⟩ : Shape).Idx → EReal) (r : (⟨2, ![N, K]⟩ : Shape).Idx → EReal) (p : Fin M) (j : Fin N) :
    ∑ q : D.contr.Idx, l (D.lhsIdx (ix2 p j) q) * r (D.rhsIdx (ix2 p j) q) = ∑ k : Fin K, l (ix2 p k) * r (ix2 j k) :=
  sum_one_axis D K hr hs l r (ix2 p j) (fun k => ix2 p k) (fun k => ix2 j k)
    (fun q => funext fun a => Fin.ext (by
      match a with
      | ⟨0, _⟩ => exact hl0 _ _
      | ⟨1, _⟩ => exact hl1 _ _))
    (fun q => funext fun a => Fin.ext (by
      match a with
      | ⟨0, _⟩ => exact hr0 _ _
      | ⟨1, _⟩ => exact hr1 _ _))

/-- Such a product accumulated into zeros, read at entry `(p, j)`; the operands may be of any two float formats (at the
    extended reals a format is not a restriction). -/
theorem matmul_rows_apply {M K N : Nat} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (prec : Option ContractPrecision)
    (l : FVec Ideal ⟨2, ![M, K]⟩ φ₁) (r : FVec Ideal ⟨2, ![N, K]⟩ φ₂) (p : Fin M) (j : Fin N) :
    FloatOps.matmul D prec l r (constant (F := Ideal) ⟨2, ![M, N]⟩ .f32 0x00000000#32) (ix2 p j)
      = ∑ k : Fin K, l (ix2 p k) * r (ix2 j k) := by
  rw [Ideal.matmul_constant_zero_apply]
  exact sum_rows D hr hs hl0 hl1 hr0 hr1 l r p j

end Cert.LibDotRows

end
-- ==== Proof.Payload.lean ====
/-
  What the kernel body stores, entry by entry. The body works on one block of 256 tokens by 512 output channels. From the
  blocks it loads — the tokens' inputs `x` (256×4096), their mixture weights `w` (256×4), the input scales `s` (4×4096), the
  block's output scales `u` (4×512), the block's rows of the sign matrix `g` (512×4096) and the block's bias row `b`
  (1×512) — the value it stores has, at token `p` and channel `q` of the block,

      ( ∑ₕ ( x(p,h) · ∑ₑ w(p,e)·s(e,h) ) · g(q,h) ) · ( ∑ₑ w(p,e)·u(e,q) ) + b(0,q).

  The two small products are rows-by-columns products into zeros; the large one contracts the second axes of both
  operands (no transpose is ever formed); narrowing the scaled inputs to sixteen bits before the large product is the
  identity on the extended reals.
-/
import proofs.«154342_j16054587752856_1_alg».proof.Proof.Gen.KernelIdeal.Skeleton
import proofs.«154342_j16054587752856_1_alg».proof.Proof.LibPlainDot
import proofs.«154342_j16054587752856_1_alg».proof.Proof.LibDotRows
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! ## Where each product reads its operands, axis by axis -/

theorem inScale_l0 (i : S256x4096.Idx) (q : dot_S256x4_S4x4096_S256x4096_1_0_0_1_n_n.contr.Idx) :
    (dot_S256x4_S4x4096_S256x4096_1_0_0_1_n_n.lhsIdx i q 0).val = (i 0).val := by
  unfold DotDims.lhsIdx
  rw [dif_neg (show ¬(0 : Fin S256x4.rank) ∈ dot_S256x4_S4x4096_S256x4096_1_0_0_1_n_n.lhsBatch by decide), dif_pos (show (0 : Fin S256x4.rank) ∈ dot_S256x4_S4x4096_S256x4096_1_0_0_1_n_n.lhsNonContracting by decide)]
  rfl
theorem inScale_l1 (i : S256x4096.Idx) (q : dot_S256x4_S4x4096_S256x4096_1_0_0_1_n_n.contr.Idx) :
    (dot_S256x4_S4x4096_S256x4096_1_0_0_1_n_n.lhsIdx i q 1).val = (q ⟨0, by decide⟩).val :=
  dot_S256x4_S4x4096_S256x4096_1_0_0_1_n_n.lhsIdx_val_of_single rfl i q
theorem inScale_r0 (i : S256x4096.Idx) (q : dot_S256x4_S4x4096_S256x4096_1_0_0_1_n_n.contr.Idx) :
    (dot_S256x4_S4x4096_S256x4096_1_0_0_1_n_n.rhsIdx i q 0).val = (q ⟨0, by decide⟩).val :=
  dot_S256x4_S4x4096_S256x4096_1_0_0_1_n_n.rhsIdx_val_of_single rfl i q
theorem inScale_r1 (i : S256x4096.Idx) (q : dot_S256x4_S4x4096_S256x4096_1_0_0_1_n_n.contr.Idx) :
    (dot_S256x4_S4x4096_S256x4096_1_0_0_1_n_n.rhsIdx i q 1).val = (i 1).val := by
  unfold DotDims.rhsIdx
  rw [dif_neg (show ¬(1 : Fin S4x4096.rank) ∈ dot_S256x4_S4x4096_S256x4096_1_0_0_1_n_n.rhsBatch by decide), dif_pos (show (1 : Fin S4x4096.rank) ∈ dot_S256x4_S4x4096_S256x4096_1_0_0_1_n_n.rhsNonContracting by decide)]
  rfl

theorem outScale_l0 (i : S256x512.Idx) (q : dot_S256x4_S4x512_S256x512_1_0_0_1_n_n.contr.Idx) :
    (dot_S256x4_S4x512_S256x512_1_0_0_1_n_n.lhsIdx i q 0).val = (i 0).val := by
  unfold DotDims.lhsIdx
  rw [dif_neg (show ¬(0 : Fin S256x4.rank) ∈ dot_S256x4_S4x512_S256x512_1_0_0_1_n_n.lhsBatch by decide), dif_pos (show (0 : Fin S256x4.rank) ∈ dot_S256x4_S4x512_S256x512_1_0_0_1_n_n.lhsNonContracting by decide)]
  rfl
theorem outScale_l1 (i : S256x512.Idx) (q : dot_S256x4_S4x512_S256x512_1_0_0_1_n_n.contr.Idx) :
    (dot_S256x4_S4x512_S256x512_1_0_0_1_n_n.lhsIdx i q 1).val = (q ⟨0, by decide⟩).val :=
  dot_S256x4_S4x512_S256x512_1_0_0_1_n_n.lhsIdx_val_of_single rfl i q
theorem outScale_r0 (i : S256x512.Idx) (q : dot_S256x4_S4x512_S256x512_1_0_0_1_n_n.contr.Idx) :
    (dot_S256x4_S4x512_S256x512_1_0_0_1_n_n.rhsIdx i q 0).val = (q ⟨0, by decide⟩).val :=
  dot_S256x4_S4x512_S256x512_1_0_0_1_n_n.rhsIdx_val_of_single rfl i q
theorem outScale_r1 (i : S256x512.Idx) (q : dot_S256x4_S4x512_S256x512_1_0_0_1_n_n.contr.Idx) :
    (dot_S256x4_S4x512_S256x512_1_0_0_1_n_n.rhsIdx i q 1).val = (i 1).val := by
  unfold DotDims.rhsIdx
  rw [dif_neg (show ¬(1 : Fin S4x512.rank) ∈ dot_S256x4_S4x512_S256x512_1_0_0_1_n_n.rhsBatch by decide), dif_pos (show (1 : Fin S4x512.rank) ∈ dot_S256x4_S4x512_S256x512_1_0_0_1_n_n.rhsNonContracting by decide)]
  rfl

theorem main_l0 (i : S256x512.Idx) (q : dot_S256x4096_S512x4096_S256x512_1_1_0_0_n_n.contr.Idx) :
    (dot_S256x4096_S512x4096_S256x512_1_1_0_0_n_n.lhsIdx i q 0).val = (i 0).val := by
  unfold DotDims.lhsIdx
  rw [dif_neg (show ¬(0 : Fin S256x4096.rank) ∈ dot_S256x4096_S512x4096_S256x512_1_1_0_0_n_n.lhsBatch by decide), dif_pos (show (0 : Fin S256x4096.rank) ∈ dot_S256x4096_S512x4096_S256x512_1_1_0_0_n_n.lhsNonContracting by decide)]
  rfl
theorem main_l1 (i : S256x512.Idx) (q : dot_S256x4096_S512x4096_S256x512_1_1_0_0_n_n.contr.Idx) :
    (dot_S256x4096_S512x4096_S256x512_1_1_0_0_n_n.lhsIdx i q 1).val = (q ⟨0, by decide⟩).val :=
  dot_S256x4096_S512x4096_S256x512_1_1_0_0_n_n.lhsIdx_val_of_single rfl i q
theorem main_r1 (i : S256x512.Idx) (q : dot_S256x4096_S512x4096_S256x512_1_1_0_0_n_n.contr.Idx) :
    (dot_S256x4096_S512x4096_S256x512_1_1_0_0_n_n.rhsIdx i q 1).val = (q ⟨0, by decide⟩).val :=
  dot_S256x4096_S512x4096_S256x512_1_1_0_0_n_n.rhsIdx_val_of_single rfl i q
theorem main_r0 (i : S256x512.Idx) (q : dot_S256x4096_S512x4096_S256x512_1_1_0_0_n_n.contr.Idx) :
    (dot_S256x4096_S512x4096_S256x512_1_1_0_0_n_n.rhsIdx i q 0).val = (i 1).val := by
  unfold DotDims.rhsIdx
  rw [dif_neg (show ¬(0 : Fin S512x4096.rank) ∈ dot_S256x4096_S512x4096_S256x512_1_1_0_0_n_n.rhsBatch by decide), dif_pos (show (0 : Fin S512x4096.rank) ∈ dot_S256x4096_S512x4096_S256x512_1_1_0_0_n_n.rhsNonContracting by decide)]
  rfl

/-! ## The stored value at an entry -/

/-- The value the body stores, at token `p` and channel `q` of the block. -/
theorem payload_entry (x : Vec Ideal S256x4096 .f32) (w : Vec Ideal S256x4 .f32) (s : Vec Ideal S4x4096 .f32)
    (u : Vec Ideal S4x512 .f32) (g : Vec Ideal S512x4096 .bf16) (b : Vec Ideal S1x512 .f32) (p : Fin 256) (q : Fin 512) :
    k0_pay1 (F := Ideal) x w s u g b (ix2 p q)
      = (∑ h : Fin 4096, (x (ix2 p h) * ∑ e : Fin 4, w (ix2 p e) * s (ix2 e h)) * g (ix2 q h))
          * (∑ e : Fin 4, w (ix2 p e) * u (ix2 e q)) + b (ix2 (0 : Fin 1) q) := by
  unfold k0_pay1
  simp only [shapeCast_self, matmul]
  rw [addf_apply, mulf_apply,
    Cert.LibDotRows.matmul_rows_apply dot_S256x4096_S512x4096_S256x512_1_1_0_0_n_n rfl rfl main_l0 main_l1 main_r0 main_r1,
    Cert.LibPlainDot.matmul_plain_apply dot_S256x4_S4x512_S256x512_1_0_0_1_n_n rfl rfl outScale_l0 outScale_l1 outScale_r0 outScale_r1,
    broadcastTo_1b_ab_apply]
  simp only [truncf_apply, mulf_apply,
    Cert.LibPlainDot.matmul_plain_apply dot_S256x4_S4x4096_S256x4096_1_0_0_1_n_n rfl rfl inScale_l0 inScale_l1 inScale_r0 inScale_r1]

end Cert.KernelIdeal.Body

end
-- ==== Proof.Spec.lean ====
/-
  The layer both programs compute, entry by entry, on the extended reals. With `xf` the tokens as rows, `rw` each token's
  mixture weights over the four scale sets, `ics` / `ocs` the per-channel scales of the inputs and of the outputs, `sg`
  the signs of the weight matrix and `b` the bias, the entry of token `n` and output channel `o` is

      ( ∑ₕ ( xf(n,h) · ∑ₑ rw(n,e)·ics(e,h) ) · sg(o,h) ) · ( ∑ₑ rw(n,e)·ocs(e,o) ) + b(o):

  the token's inputs, each scaled by its mixed input scale, against row `o` of the signs; the result scaled by the mixed
  output scale of channel `o`; the bias added.
-/
import Idealize.ShloMosaic.PureOps.Ideal
import Idealize.ShloMosaic.Lib.ValueIdx

noncomputable section

open scoped BigOperators

namespace Cert.MixScaleLinear

open Idealize.ShloMosaic Idealize.ShloMosaic.ValueIdx

/-- One entry of the layer: token `n`, output channel `o`. -/
def entry (xf : (⟨2, ![8192, 4096]⟩ : Shape).Idx → EReal) (rw : (⟨2, ![8192, 4]⟩ : Shape).Idx → EReal)
    (ics ocs : (⟨2, ![4, 4096]⟩ : Shape).Idx → EReal) (sg : (⟨2, ![4096, 4096]⟩ : Shape).Idx → EReal)
    (b : (⟨1, ![4096]⟩ : Shape).Idx → EReal) (n : Fin 8192) (o : Fin 4096) : EReal :=
  (∑ h : Fin 4096, (xf (ix2 n h) * ∑ e : Fin 4, rw (ix2 n e) * ics (ix2 e h)) * sg (ix2 o h))
    * (∑ e : Fin 4, rw (ix2 n e) * ocs (ix2 e o)) + b (ix1 o)

/-- The whole result, tokens by output channels. -/
def out (xf : (⟨2, ![8192, 4096]⟩ : Shape).Idx → EReal) (rw : (⟨2, ![8192, 4]⟩ : Shape).Idx → EReal)
    (ics ocs : (⟨2, ![4, 4096]⟩ : Shape).Idx → EReal) (sg : (⟨2, ![4096, 4096]⟩ : Shape).Idx → EReal)
    (b : (⟨1, ![4096]⟩ : Shape).Idx → EReal) : (⟨2, ![8192, 4096]⟩ : Shape).Idx → EReal :=
  fun i => entry xf rw ics ocs sg b (i 0) (i 1)

theorem out_apply (xf : (⟨2, ![8192, 4096]⟩ : Shape).Idx → EReal) (rw : (⟨2, ![8192, 4]⟩ : Shape).Idx → EReal)
    (ics ocs : (⟨2, ![4, 4096]⟩ : Shape).Idx → EReal) (sg : (⟨2, ![4096, 4096]⟩ : Shape).Idx → EReal)
    (b : (⟨1, ![4096]⟩ : Shape).Idx → EReal) (n : Fin 8192) (o : Fin 4096) :
    out xf rw ics ocs sg b (ix2 n o) = entry xf rw ics ocs sg b n o := rfl

end Cert.MixScaleLinear

end
-- ==== Proof.Blocks.lean ====
/-
  From blocks to the array. The grid has 32 × 8 points; point `t` works on tokens `256·(t / 8) … + 255` and output
  channels `512·(t % 8) … + 511`. It loads those tokens' inputs and mixture weights, all input scales, the output scales,
  the sign rows and the bias of those channels, and writes back one 256 × 512 block of the result. Each entry of that block
  is the layer's entry (Spec.lean) at the token and the channel the block's position gives, because every loaded block is
  the restriction of its array to exactly the rows and columns that entry reads. The 256 blocks tile the 8192 × 4096
  result, so after the last point the whole array is the layer of the arrays the region found.
-/
import proofs.«154342_j16054587752856_1_alg».proof.Proof.Gen.KernelIdeal.Frame
import proofs.«154342_j16054587752856_1_alg».proof.Proof.Payload
import proofs.«154342_j16054587752856_1_alg».proof.Proof.Spec
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## The arrays the region finds, and the layer of them -/

/-- The tokens as rows. -/
abbrev tokens (c : Dev nD) : S8192x4096.Idx → EReal := V m c main_v0
/-- Each token's mixture weights. -/
abbrev weights (c : Dev nD) : S8192x4.Idx → EReal := V m c main_v13
/-- The per-channel input scales. -/
abbrev inScales (c : Dev nD) : S4x4096.Idx → EReal := V m c main_arg4
/-- The per-channel output scales. -/
abbrev outScales (c : Dev nD) : S4x4096.Idx → EReal := V m c main_arg5
/-- The signs of the weight matrix. -/
abbrev signs (c : Dev nD) : S4096x4096.Idx → EReal := V m c main_v15
/-- The bias, as one row. -/
abbrev biasRow (c : Dev nD) : S1x4096.Idx → EReal := V m c main_v16

/-- The layer of those arrays. -/
abbrev layer (c : Dev nD) : S8192x4096.Idx → EReal :=
  Cert.MixScaleLinear.out (tokens m c) (weights m c) (inScales m c) (outScales m c) (signs m c)
    (fun j => biasRow m c (ix2 (0 : Fin 1) (⟨(j 0).val, (j 0).isLt⟩ : Fin 4096)))

theorem hz : (![0, 0] : Fin 2 → Nat) = fun _ => 0 := funext fun a => by fin_cases a <;> rfl

/-! ## Which block each window holds at a point -/

/-- The printed index maps, decided over the grid: the result's block is (t / 8, t % 8); the tokens' and the weights' blocks
    follow its row, the output scales', the sign rows' and the bias's follow its column, the input scales never move. -/
theorem idx_facts : ∀ t : Fin cfg0.N,
    win0_6.index t (0 : Fin 2) = t.val / 8 ∧ win0_6.index t (1 : Fin 2) = t.val % 8
    ∧ win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val % 8
    ∧ win0_4.index t (0 : Fin 2) = t.val % 8 ∧ win0_4.index t (1 : Fin 2) = 0
    ∧ win0_5.index t (0 : Fin 2) = 0 ∧ win0_5.index t (1 : Fin 2) = t.val % 8 :=
  (by decide +kernel : ∀ t : Fin grid0.N, _)

theorem point_lt (t : Fin cfg0.N) : t.val < 256 := lt_of_lt_of_eq t.isLt N_0

/-! ## Each loaded block is its array restricted to the point's rows and columns -/

theorem read_tokens (c : Dev nD) (t : Fin cfg0.N) (p : Fin 256) (h : Fin 4096) (n : Fin 8192) (hn : n.val = t.val / 8 * 256 + p.val) :
    iblk m c 0 t (ix2 p h) = tokens m c (ix2 n h) := by
  obtain ⟨d0, d1, x0, x1, w0, w1, s0, s1, u0, u1, g0, g1, b0, b1⟩ := idx_facts t
  show V m c main_v0 (((cfg0.win 0).blk t).view.emb (ix2 p h)) = V m c main_v0 (ix2 n h)
  refine congrArg (V m c main_v0) (funext fun a => Fin.ext ?_)
  match a with
  | ⟨0, _⟩ => show win0_0.index t (0 : Fin 2) * 256 + 1 * p.val = n.val; omega
  | ⟨1, _⟩ => show win0_0.index t (1 : Fin 2) * 4096 + 1 * h.val = h.val; omega

theorem read_weights (c : Dev nD) (t : Fin cfg0.N) (p : Fin 256) (e : Fin 4) (n : Fin 8192) (hn : n.val = t.val / 8 * 256 + p.val) :
    iblk m c 1 t (ix2 p e) = weights m c (ix2 n e) := by
  obtain ⟨d0, d1, x0, x1, w0, w1, s0, s1, u0, u1, g0, g1, b0, b1⟩ := idx_facts t
  show V m c main_v13 (((cfg0.win 1).blk t).view.emb (ix2 p e)) = V m c main_v13 (ix2 n e)
  refine congrArg (V m c main_v13) (funext fun a => Fin.ext ?_)
  match a with
  | ⟨0, _⟩ => show win0_1.index t (0 : Fin 2) * 256 + 1 * p.val = n.val; omega
  | ⟨1, _⟩ => show win0_1.index t (1 : Fin 2) * 4 + 1 * e.val = e.val; omega

theorem read_inScales (c : Dev nD) (t : Fin cfg0.N) (e : Fin 4) (h : Fin 4096) :
    iblk m c 2 t (ix2 e h) = inScales m c (ix2 e h) := by
  obtain ⟨d0, d1, x0, x1, w0, w1, s0, s1, u0, u1, g0, g1, b0, b1⟩ := idx_facts t
  show V m c main_arg4 (((cfg0.win 2).blk t).view.emb (ix2 e h)) = V m c main_arg4 (ix2 e h)
  refine congrArg (V m c main_arg4) (funext fun a => Fin.ext ?_)
  match a with
  | ⟨0, _⟩ => show win0_2.index t (0 : Fin 2) * 4 + 1 * e.val = e.val; omega
  | ⟨1, _⟩ => show win0_2.index t (1 : Fin 2) * 4096 + 1 * h.val = h.val; omega

theorem read_outScales (c : Dev nD) (t : Fin cfg0.N) (e : Fin 4) (q : Fin 512) (o : Fin 4096) (ho : o.val = t.val % 8 * 512 + q.val) :
    iblk m c 3 t (ix2 e q) = outScales m c (ix2 e o) := by
  obtain ⟨d0, d1, x0, x1, w0, w1, s0, s1, u0, u1, g0, g1, b0, b1⟩ := idx_facts t
  show V m c main_arg5 (((cfg0.win 3).blk t).view.emb (ix2 e q)) = V m c main_arg5 (ix2 e o)
  refine congrArg (V m c main_arg5) (funext fun a => Fin.ext ?_)
  match a with
  | ⟨0, _⟩ => show win0_3.index t (0 : Fin 2) * 4 + 1 * e.val = e.val; omega
  | ⟨1, _⟩ => show win0_3.index t (1 : Fin 2) * 512 + 1 * q.val = o.val; omega

theorem read_signs (c : Dev nD) (t : Fin cfg0.N) (q : Fin 512) (h : Fin 4096) (o : Fin 4096) (ho : o.val = t.val % 8 * 512 + q.val) :
    iblk m c 4 t (ix2 q h) = signs m c (ix2 o h) := by
  obtain ⟨d0, d1, x0, x1, w0, w1, s0, s1, u0, u1, g0, g1, b0, b1⟩ := idx_facts t
  show V m c main_v15 (((cfg0.win 4).blk t).view.emb (ix2 q h)) = V m c main_v15 (ix2 o h)
  refine congrArg (V m c main_v15) (funext fun a => Fin.ext ?_)
  match a with
  | ⟨0, _⟩ => show win0_4.index t (0 : Fin 2) * 512 + 1 * q.val = o.val; omega
  | ⟨1, _⟩ => show win0_4.index t (1 : Fin 2) * 4096 + 1 * h.val = h.val; omega

theorem read_bias (c : Dev nD) (t : Fin cfg0.N) (q : Fin 512) (o : Fin 4096) (ho : o.val = t.val % 8 * 512 + q.val) :
    iblk m c 5 t (ix2 (0 : Fin 1) q) = biasRow m c (ix2 (0 : Fin 1) o) := by
  obtain ⟨d0, d1, x0, x1, w0, w1, s0, s1, u0, u1, g0, g1, b0, b1⟩ := idx_facts t
  show V m c main_v16 (((cfg0.win 5).blk t).view.emb (ix2 (0 : Fin 1) q)) = V m c main_v16 (ix2 (0 : Fin 1) o)
  refine congrArg (V m c main_v16) (funext fun a => Fin.ext ?_)
  match a with
  | ⟨0, _⟩ => show win0_5.index t (0 : Fin 2) * 1 + 1 * 0 = 0; omega
  | ⟨1, _⟩ => show win0_5.index t (1 : Fin 2) * 512 + 1 * q.val = o.val; omega

/-! ## What a point writes back -/

/-- WHAT POINT `t` WRITES BACK is block `t` of the layer of the arrays the region found. -/
theorem flushed_is_layer (c : Dev nD) (t : Fin cfg0.N) :
    (dats m 0 c).flushed 6 t = ((cfg0.win 6).blk t).view.read (Elt Ideal) (layer m c) := by
  show (cfg0.win 6).cut (grid0.coords t) ((dats m 0 c).after 6 t) = _
  rw [after0_6]
  unfold out0_6
  rw [View.canon_unit_zero hz]
  simp only [View.ld_unit_zero (S := S256x4096) hz, View.ld_unit_zero (S := S256x4) hz, View.ld_unit_zero (S := S4x4096) hz,
    View.ld_unit_zero (S := S4x512) hz, View.ld_unit_zero (S := S512x4096) hz, View.ld_unit_zero (S := S1x512) hz]
  funext j
  obtain ⟨d0, d1, -⟩ := idx_facts t
  have ht := point_lt t
  have hj0 : (j 0).val < 256 := (j 0).isLt
  have hj1 : (j 1).val < 512 := (j 1).isLt
  obtain ⟨p, hp⟩ : ∃ p : Fin 256, p.val = (j 0).val := ⟨⟨(j 0).val, hj0⟩, rfl⟩
  obtain ⟨q, hq⟩ : ∃ q : Fin 512, q.val = (j 1).val := ⟨⟨(j 1).val, hj1⟩, rfl⟩
  obtain ⟨n, hn⟩ : ∃ n : Fin 8192, n.val = t.val / 8 * 256 + p.val := ⟨⟨t.val / 8 * 256 + p.val, by omega⟩, rfl⟩
  obtain ⟨o, ho⟩ : ∃ o : Fin 4096, o.val = t.val % 8 * 512 + q.val := ⟨⟨t.val % 8 * 512 + q.val, by omega⟩, rfl⟩
  have hx : (cfg0.win 6).xinj (grid0.coords t) j = ix2 p q := funext fun a => Fin.ext (by
    match a with
    | ⟨0, _⟩ => exact hp.symm
    | ⟨1, _⟩ => exact hq.symm)
  have hemb : ((cfg0.win 6).blk t).view.emb j = ix2 n o := funext fun a => Fin.ext (by
    match a with
    | ⟨0, _⟩ => show win0_6.index t (0 : Fin 2) * 256 + 1 * (j 0).val = n.val; omega
    | ⟨1, _⟩ => show win0_6.index t (1 : Fin 2) * 512 + 1 * (j 1).val = o.val; omega)
  refine ((congrArg (k0_pay1 (F := Ideal) (iblk m c 0 t) (iblk m c 1 t) (iblk m c 2 t) (iblk m c 3 t) (iblk m c 4 t) (iblk m c 5 t)) hx).trans ?_).trans
    (congrArg (layer m c) hemb).symm
  refine (Cert.KernelIdeal.Body.payload_entry (iblk m c 0 t) (iblk m c 1 t) (iblk m c 2 t) (iblk m c 3 t) (iblk m c 4 t) (iblk m c 5 t) p q).trans ?_
  have rx : ∀ h : Fin 4096, iblk m c 0 t (ix2 p h) = tokens m c (ix2 n h) := fun h => read_tokens m c t p h n hn
  have rw' : ∀ e : Fin 4, iblk m c 1 t (ix2 p e) = weights m c (ix2 n e) := fun e => read_weights m c t p e n hn
  have rs : ∀ (e : Fin 4) (h : Fin 4096), iblk m c 2 t (ix2 e h) = inScales m c (ix2 e h) := fun e h => read_inScales m c t e h
  have ru : ∀ e : Fin 4, iblk m c 3 t (ix2 e q) = outScales m c (ix2 e o) := fun e => read_outScales m c t e q o ho
  have rg : ∀ h : Fin 4096, iblk m c 4 t (ix2 q h) = signs m c (ix2 o h) := fun h => read_signs m c t q h o ho
  have rb : iblk m c 5 t (ix2 (0 : Fin 1) q) = biasRow m c (ix2 (0 : Fin 1) o) := read_bias m c t q o ho
  simp only [rx, rw', rs, ru, rg, rb]
  rfl

/-! ## The blocks tile the result -/

/-- An index of the result is in point `t`'s block iff each coordinate is in the block's range on its axis. -/
theorem mem_blk (t : Fin cfg0.N) (i : S8192x4096.Idx) :
    i ∈ ((cfg0.win 6).blk t).view.set ↔ ∀ a : Fin 2, win0_6.index t a * S256x512.size a ≤ (i a).val ∧ (i a).val < win0_6.index t a * S256x512.size a + S256x512.size a := by
  show i ∈ ((View.whole main_v17).slice (win0_6.rect t)).set ↔ _
  rw [View.set_slice_whole, Rect.mem_set_unit]
  exact Iff.rfl

/-- Every entry of the result lies in the block of the point (row / 256, column / 512), and every point writes back. -/
theorem covered (i : S8192x4096.Idx) :
    ∃ t : Fin cfg0.N, (cfg0.win 6).flush t = true ∧ i ∈ ((cfg0.win 6).blk t).view.set := by
  have hi0 : (i 0).val < 8192 := (i 0).isLt
  have hi1 : (i 1).val < 4096 := (i 1).isLt
  obtain ⟨t, ht⟩ : ∃ t : Fin cfg0.N, t.val = (i 0).val / 256 * 8 + (i 1).val / 512 :=
    ⟨⟨(i 0).val / 256 * 8 + (i 1).val / 512, lt_of_lt_of_eq (b := 256) (by omega) N_0.symm⟩, rfl⟩
  obtain ⟨d0, d1, -⟩ := idx_facts t
  refine ⟨t, flush0_6 t, ?_⟩
  rw [mem_blk]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 512 ≤ (i 1).val ∧ (i 1).val < win0_6.index t (1 : Fin 2) * 512 + 512; omega

/-- THE RESULT ARRAY after the last point: the layer of the arrays the region found. -/
theorem final (c : Dev nD) : (dats m 0 c).arrAt 6 cfg0.N = layer m c :=
  (dats m 0 c).arrAt_eq_of_cover 6 (layer m c) (fun t _ => flushed_is_layer m c t) covered

end Cert.KernelIdeal.Blocks

end
-- ==== Proof.RefRead.lean ====
/-
  The reference, read entry by entry: its result before the final reshape is the layer of Spec.lean applied to its own
  intermediate arrays — the tokens as rows (the reshaped input), the mixture weights (the softmax of the gating logits),
  the two scale tables as given, the signs of the weight matrix, the bias. Each stage is read at an index by the
  generated lemmas; what is added here is that the indices they compose are the plain (row, column) pairs: the first
  matrix product reads (n, e) and (e, h), the second reads (n, h) and — through the transpose — the signs at (o, h).
-/
import proofs.«154342_j16054587752856_1_alg».proof.Proof.Gen.ReferenceIdeal.Read
import proofs.«154342_j16054587752856_1_alg».proof.Proof.Spec

noncomputable section

open scoped BigOperators

namespace Cert.ReferenceIdeal.RefValue

open Cert.ReferenceIdeal Cert.ReferenceIdeal.Read Idealize.ShloMosaic Idealize.ShloMosaic.ValueIdx

/-! ## The composed index functions are (row, column) pairs -/

theorem lidx19 (n : Fin 8192) (o k : Fin 4096) : lidx_main_v19 (ix2 n o) k = ix2 n k :=
  funext fun a => Fin.ext (by match a with | ⟨0, _⟩ => rfl | ⟨1, _⟩ => rfl)
theorem ridx19 (n : Fin 8192) (o k : Fin 4096) : ridx_main_v19 (ix2 n o) k = ix2 k o :=
  funext fun a => Fin.ext (by match a with | ⟨0, _⟩ => rfl | ⟨1, _⟩ => rfl)
theorem idx18 (k o : Fin 4096) : idx_main_v18 (ix2 k o) = ix2 o k :=
  funext fun a => Fin.ext (by match a with | ⟨0, _⟩ => rfl | ⟨1, _⟩ => rfl)
theorem lidx14 (n : Fin 8192) (h : Fin 4096) (e : Fin 4) : lidx_main_v14 (ix2 n h) e = ix2 n e :=
  funext fun a => Fin.ext (by match a with | ⟨0, _⟩ => rfl | ⟨1, _⟩ => rfl)
theorem ridx14 (n : Fin 8192) (h : Fin 4096) (e : Fin 4) : ridx_main_v14 (ix2 n h) e = ix2 e h :=
  funext fun a => Fin.ext (by match a with | ⟨0, _⟩ => rfl | ⟨1, _⟩ => rfl)
theorem lidx15 (n : Fin 8192) (o : Fin 4096) (e : Fin 4) : lidx_main_v15 (ix2 n o) e = ix2 n e :=
  funext fun a => Fin.ext (by match a with | ⟨0, _⟩ => rfl | ⟨1, _⟩ => rfl)
theorem ridx15 (n : Fin 8192) (o : Fin 4096) (e : Fin 4) : ridx_main_v15 (ix2 n o) e = ix2 e o :=
  funext fun a => Fin.ext (by match a with | ⟨0, _⟩ => rfl | ⟨1, _⟩ => rfl)
theorem idx_bias (n : Fin 8192) (o : Fin 4096) : idx_main_v21 (idx_main_v22 (ix2 n o)) = ix1 o :=
  funext fun a => Fin.ext (by match a with | ⟨0, _⟩ => rfl)

/-! ## The result before the reshape is the layer -/

/-- The reference's result, as tokens by output channels, is the layer of its own stages. -/
theorem v23_is_layer (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 x4 x5 : (⟨S4x4096, .f32⟩ : BufTy).Contents (Elt Ideal)) :
    val_main_v23 (F := Ideal) x0 x1 x2 x3 x4 x5
      = Cert.MixScaleLinear.out (val_main_v0 (F := Ideal) x0) (val_main_v13 (F := Ideal) x0 x3) x4 x5 (val_main_v16 (F := Ideal) x1) x2 := by
  funext i
  obtain ⟨n, o, rfl⟩ : ∃ (n : Fin 8192) (o : Fin 4096), i = ix2 n o := ⟨i 0, i 1, eq_ix2 i⟩
  rw [Cert.MixScaleLinear.out_apply, val_main_v23_apply, val_main_v20_apply, val_main_v19_apply, val_main_v15_apply,
    val_main_v22_apply, val_main_v21_apply]
  unfold Cert.MixScaleLinear.entry
  simp only [lidx19, ridx19, lidx15, ridx15, idx_bias, val_main_v17_apply, val_main_v14_apply, val_main_v18_apply, idx18,
    lidx14, ridx14, Ideal.mulf_def, Ideal.addf_def]

end Cert.ReferenceIdeal.RefValue

end
-- ==== Proof.KernelRun.lean ====
/-
  The kernel's run, with its result named. Before the region the program reshapes the input into tokens-by-channels,
  computes each token's mixture weights (the softmax of its gating logits), takes the signs of the weight matrix and lays
  the bias out as a row; these are, operation for operation, the reference's own first stages, so each array the region
  finds is the corresponding stage of the reference applied to the same arguments (narrowing the signs to sixteen bits
  changes nothing on the extended reals). The region leaves the layer of those arrays (Blocks.lean), which is therefore
  the reference's result before its last reshape (RefRead.lean); the one operation after the region is that same
  reshape. So the kernel's result is the reference's result as a function of the arguments.
-/
import proofs.«154342_j16054587752856_1_alg».proof.Proof.Blocks
import proofs.«154342_j16054587752856_1_alg».proof.Proof.RefRead
import Idealize.ShloMosaic.Lib.StableHlo.Run
import Idealize.ShloMosaic.Lib.ValueLayout

set_option maxRecDepth 16384

noncomputable section

namespace Cert.KernelIdeal.RunValue

open Cert.KernelIdeal Cert.KernelIdeal.Gen Cert.KernelIdeal.Blocks Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## The arrays the region finds are the reference's first stages -/

/-- The tokens: the input reshaped to rows. -/
theorem tokens_eq (c : Dev nD) :
    tokens m c = Cert.ReferenceIdeal.Read.val_main_v0 (F := Ideal) (m ((c.tc : Thread nD τ).loc main_arg0)) := by
  show StableHlo.after hostOps0 (fun b => m (c, b)) (Proc.devRef .tc main_v0) = _
  after_results
  rfl

/-- The mixture weights: the same chain of operations on the same two arguments. -/
theorem weights_eq (c : Dev nD) :
    weights m c = Cert.ReferenceIdeal.Read.val_main_v13 (F := Ideal) (m ((c.tc : Thread nD τ).loc main_arg0)) (m ((c.tc : Thread nD τ).loc main_arg3)) := by
  show StableHlo.after hostOps0 (fun b => m (c, b)) (Proc.devRef .tc main_v13) = _
  after_results
  rfl

/-- The signs; their narrowing to sixteen bits is the identity on the extended reals. -/
theorem signs_eq (c : Dev nD) :
    signs m c = Cert.ReferenceIdeal.Read.val_main_v16 (F := Ideal) (m ((c.tc : Thread nD τ).loc main_arg1)) := by
  show StableHlo.after hostOps0 (fun b => m (c, b)) (Proc.devRef .tc main_v15) = _
  after_results
  rfl

/-- The bias as one row. -/
theorem biasRow_eq (c : Dev nD) :
    biasRow m c = shapeCast S1x4096 (m ((c.tc : Thread nD τ).loc main_arg2)) shapeCasts_S4096_S1x4096 := by
  show StableHlo.after hostOps0 (fun b => m (c, b)) (Proc.devRef .tc main_v16) = _
  after_results
  rfl

/-- Read along its one row, it is the bias vector. -/
theorem bias_eq (c : Dev nD) :
    (fun j : S4096.Idx => biasRow m c (ix2 (0 : Fin 1) (⟨(j 0).val, (j 0).isLt⟩ : Fin 4096))) = m ((c.tc : Thread nD τ).loc main_arg2) := by
  funext j
  rw [biasRow_eq m c]
  refine (shapeCast_a_1a_apply (m ((c.tc : Thread nD τ).loc main_arg2)) shapeCasts_S4096_S1x4096 (0 : Fin 1) ⟨(j 0).val, (j 0).isLt⟩).trans ?_
  exact congrArg (m ((c.tc : Thread nD τ).loc main_arg2)) (funext fun a => Fin.ext (by match a with | ⟨0, _⟩ => rfl))

/-! ## The region's result is the reference's result before its last reshape -/

/-- The layer depends on its six arrays only. -/
theorem out_congr {xf xf' : (⟨2, ![8192, 4096]⟩ : Shape).Idx → EReal} {w w' : (⟨2, ![8192, 4]⟩ : Shape).Idx → EReal}
    {s s' u u' : (⟨2, ![4, 4096]⟩ : Shape).Idx → EReal} {g g' : (⟨2, ![4096, 4096]⟩ : Shape).Idx → EReal}
    {b b' : (⟨1, ![4096]⟩ : Shape).Idx → EReal} (h1 : xf = xf') (h2 : w = w') (h3 : s = s') (h4 : u = u') (h5 : g = g') (h6 : b = b') :
    Cert.MixScaleLinear.out xf w s u g b = Cert.MixScaleLinear.out xf' w' s' u' g' b' := by
  subst h1 h2 h3 h4 h5 h6; rfl

theorem layer_eq (c : Dev nD) :
    layer m c = Cert.ReferenceIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (out_congr (tokens_eq m c) (weights_eq m c) (V_main_arg4 m c) (V_main_arg5 m c) (signs_eq m c) (bias_eq m c)).trans
    (Cert.ReferenceIdeal.RefValue.v23_is_layer _ _ _ _ _ _).symm

/-- After the region the program reshapes the region's result: that is the reference's last stage. -/
theorem tail_eq (c : Dev nD) :
    Pipeline.afterTail₀ cfgs (dats m) 0 (V0 m) [hostOps1] c main_v18
      = Cert.ReferenceIdeal.Read.val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e : Pipeline.withArrays (cfgs 0).spec c (V0 m c) (fun w => (dats m 0 c).arrAt w (cfgs 0).N) (Proc.devRef .tc main_v17)
      = Cert.ReferenceIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
    (Pipeline.withArrays_arr spec0 launch0.win.arr_inj c _ _ 6).trans ((final m c).trans (layer_eq m c))
  unfold Pipeline.afterTail₀
  show StableHlo.after hostOps1 _ (Proc.devRef .tc main_v18) = _
  after_results
  rw [e]
  rfl

/-! ## The run -/

/-- Every weakly fair execution of the kernel's program terminates with its result at the reference's result function of
    the arguments, and the arguments unchanged. -/
theorem run : θ_run defs (onTc (τ := τ) (main (F := Ideal))) ⟨m, fun _ => 0, ρ⟩ (fun r => ∀ c : Dev nD,
      r.2.mem ((c.tc : Thread nD τ).loc main_v18)
        = Cert.ReferenceIdeal.Read.val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c)))⟩)
    (run_main m ρ)

end Cert.KernelIdeal.RunValue

end
-- ==== Proof.lean ====
/-
  A linear layer with binarized weights and a soft mixture of scales, and its plain reference, compute the same function
  on the extended reals.

  For 8192 tokens of 4096 inputs, each token's four mixture weights are the softmax of its gating logits. The layer scales
  a token's inputs by the mixture of four per-channel input scales, multiplies by the transposed SIGNS of the weight matrix,
  scales each output channel by the mixture of four per-channel output scales, and adds the bias:

      out(n,o) = ( ∑ₕ ( x(n,h) · ∑ₑ rw(n,e)·ics(e,h) ) · sign w(o,h) ) · ( ∑ₑ rw(n,e)·ocs(e,o) ) + bias(o).

  The reference does this with whole-array operations. The kernel computes the mixture weights and the signs with the same
  whole-array operations, then works block by block — 256 tokens by 512 output channels at each of 32 × 8 grid points —
  recomputing the two mixed scales of its block from the mixture weights, contracting the full input axis in one product
  per block, and writing the block back; one reshape follows. Both sides form the same sums with the same grouping, so no
  law of arithmetic beyond the definitions is used, and the inputs' finiteness is never needed.

  The parts: Spec.lean states the layer entry by entry; RefRead.lean shows the reference's result before its last
  reshape is the layer of the reference's own stages; Payload.lean reads the value the kernel body stores at an entry of
  its block; Blocks.lean shows the blocks tile the result, so the array the region leaves is the layer of the arrays it
  found; KernelRun.lean identifies those arrays with the reference's stages and gives the kernel's run with its result
  named by the reference's own result function. The three frames come from the generated runs; the idealization rewrote
  nothing, so there is nothing to preserve.
-/
import proofs.«154342_j16054587752856_1_alg».proof.Defs
import proofs.«154342_j16054587752856_1_alg».proof.Proof.Gen.Kernel
import proofs.«154342_j16054587752856_1_alg».proof.Proof.Gen.Kernel.Frame
import proofs.«154342_j16054587752856_1_alg».proof.Proof.Gen.KernelIdeal
import proofs.«154342_j16054587752856_1_alg».proof.Proof.Gen.KernelIdeal.Frame
import proofs.«154342_j16054587752856_1_alg».proof.Proof.Gen.ReferenceIdeal
import proofs.«154342_j16054587752856_1_alg».proof.Proof.Gen.ReferenceIdeal.Run
import proofs.«154342_j16054587752856_1_alg».proof.Proof.Gen.ReferenceIdeal.Read
import proofs.«154342_j16054587752856_1_alg».proof.Proof.Gen.Pre_finite_inputs
import proofs.«154342_j16054587752856_1_alg».proof.Proof.KernelRun
import Idealize.ShloMosaic.Adequacy
import Idealize.ShloMosaic.Init

noncomputable section

namespace Cert.Proof

open Idealize.ShloMosaic Idealize.ShloMosaic.TcCoe Idealize.SL.Sem

/-- The kernel's program at the word level runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the reference's result function of those arguments. -/
theorem algebraic : Cert.algebraic_KernelIdeal_ReferenceIdeal := by
  intro m ρ m' ρ' _ hagree
  refine ⟨fun c => Cert.ReferenceIdeal.Read.val_main_v24 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
